-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 78
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S1x800000, .i32⟩
  | .hbm, ⟨52, _⟩ => ⟨S800000, .i32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S1x800000, .i32⟩
  | .hbm, ⟨88, _⟩ => ⟨S800000, .i32⟩
  | .hbm, ⟨89, _⟩ => ⟨S1x800000, .i32⟩
  | .hbm, ⟨90, _⟩ => ⟨S800000, .i32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S_, .f32⟩
  | .hbm, ⟨105, _⟩ => ⟨S800000, .f32⟩
  | .hbm, ⟨106, _⟩ => ⟨S_, .f32⟩
  | .hbm, ⟨107, _⟩ => ⟨S50000, .f32⟩
  | .hbm, ⟨108, _⟩ => ⟨S800000x1, .i32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  One layer of a mean-aggregating graph convolution, as a function of whole arrays, index by index.

  For a node (row) `r` and an output feature (column) `j` the layer's value before the activation is
      (∑ₖ mean[r,k] · Wl[k,j]) + b[j] + ∑ₖ h[r,k] · Wr[k,j],
  the neighbourhood mean through the left weight, the bias, and the node's own features through the root
  weight, added in that order. A hidden layer clamps it below at zero; the output layer leaves it.
  Everything is over the extended reals, where addition and multiplication are the exact ones and a sum
  over the 128 input features is a finite sum in any grouping.

  Also here: the one law of extended-real arithmetic the certificate needs. Dividing by `y` is multiplying by
  the inverse of `y` whenever `y ≠ 0`, and `max c 1` is never zero; so scaling by the reciprocal of `max c 1`
  and dividing by `max c 1` agree for EVERY numerator and EVERY count `c`, infinite ones included.
-/
import Idealize.ShloMosaic.PureOps.Ideal
import Idealize.ShloMosaic.Lib.ValueIdx

noncomputable section

open scoped BigOperators

namespace Cert.Sage

open Idealize.ShloMosaic Idealize.ShloMosaic.ValueIdx

/-- Node features, 128 wide. -/
abbrev SN128 : Shape := ⟨2, ![50000, 128]⟩
/-- The last layer's result, 64 wide. -/
abbrev SN64 : Shape := ⟨2, ![50000, 64]⟩
abbrev SW128 : Shape := ⟨2, ![128, 128]⟩
abbrev SW64 : Shape := ⟨2, ![128, 64]⟩
abbrev SB128 : Shape := ⟨1, ![128]⟩
abbrev SB64 : Shape := ⟨1, ![64]⟩

/-- The layer before its activation at node `r`, feature `j`, 128 features out. -/
def lin128 (mean h : FVec Ideal SN128 .f32) (Wl : FVec Ideal SW128 .f32) (b : FVec Ideal SB128 .f32) (Wr : FVec Ideal SW128 .f32)
    (r : Fin 50000) (j : Fin 128) : EReal :=
  ((∑ k : Fin 128, mean (ix2 r k) * Wl (ix2 k j)) + b (ix1 j)) + ∑ k : Fin 128, h (ix2 r k) * Wr (ix2 k j)

/-- The layer before its activation at node `r`, feature `j`, 64 features out. -/
def lin64 (mean h : FVec Ideal SN128 .f32) (Wl : FVec Ideal SW64 .f32) (b : FVec Ideal SB64 .f32) (Wr : FVec Ideal SW64 .f32)
    (r : Fin 50000) (j : Fin 64) : EReal :=
  ((∑ k : Fin 128, mean (ix2 r k) * Wl (ix2 k j)) + b (ix1 j)) + ∑ k : Fin 128, h (ix2 r k) * Wr (ix2 k j)

/-- A hidden layer: the clamp at zero of `lin128`, as an array. -/
def hidden (mean h : FVec Ideal SN128 .f32) (Wl : FVec Ideal SW128 .f32) (b : FVec Ideal SB128 .f32) (Wr : FVec Ideal SW128 .f32) :
    FVec Ideal SN128 .f32 :=
  fun i => max (lin128 mean h Wl b Wr (i 0) (i 1)) 0

/-- The output layer: `lin64` as an array, no activation. -/
def output (mean h : FVec Ideal SN128 .f32) (Wl : FVec Ideal SW64 .f32) (b : FVec Ideal SB64 .f32) (Wr : FVec Ideal SW64 .f32) :
    FVec Ideal SN64 .f32 :=
  fun i => lin64 mean h Wl b Wr (i 0) (i 1)

/-- `max c 1` is not zero: it is at least one. -/
theorem max_one_ne_zero (c : EReal) : max c 1 ≠ 0 :=
  ne_of_gt (lt_of_lt_of_le zero_lt_one (le_max_right c 1))

/-- Scaling by the reciprocal of `max c 1` is dividing by `max c 1`, for every `x` and every `c`. -/
theorem mul_recip_eq_div (x c : EReal) : x * Ideal.div 1 (max c 1) = Ideal.div x (max c 1) := by
  unfold Ideal.div
  rw [if_neg (max_one_ne_zero c), if_neg (max_one_ne_zero c), one_mul]

end Cert.Sage

end
-- ==== Proof.Net.lean ====
/-
  The network: three layers over ONE mean operator.

  Each layer takes the mean-aggregated features of the layer before it and that layer's features themselves; the first two
  clamp at zero, the last does not. The mean operator `μ` is a parameter: two programs that aggregate by the same `μ`, and whose
  layers are `Cert.Sage.hidden` and `Cert.Sage.output`, compute the same network.
-/
import proofs.«159444_j40063454937586_1_alg».proof.Proof.Spec

noncomputable section

namespace Cert.Sage

open Idealize.ShloMosaic

/-- Three layers over one mean operator `μ`: two hidden layers and the output layer, each fed the mean of the layer
    before it and that layer itself. -/
def net (μ : FVec Ideal SN128 .f32 → FVec Ideal SN128 .f32) (x : FVec Ideal SN128 .f32)
    (Wl0 : FVec Ideal SW128 .f32) (b0 : FVec Ideal SB128 .f32) (Wr0 : FVec Ideal SW128 .f32)
    (Wl1 : FVec Ideal SW128 .f32) (b1 : FVec Ideal SB128 .f32) (Wr1 : FVec Ideal SW128 .f32)
    (Wl2 : FVec Ideal SW64 .f32) (b2 : FVec Ideal SB64 .f32) (Wr2 : FVec Ideal SW64 .f32) : FVec Ideal SN64 .f32 :=
  output (μ (hidden (μ (hidden (μ x) x Wl0 b0 Wr0)) (hidden (μ x) x Wl0 b0 Wr0) Wl1 b1 Wr1))
    (hidden (μ (hidden (μ x) x Wl0 b0 Wr0)) (hidden (μ x) x Wl0 b0 Wr0) Wl1 b1 Wr1) Wl2 b2 Wr2

end Cert.Sage

end
-- ==== Proof.Glue.lean ====
/-
  The aggregation around the three layers, as functions of whole arrays, and the network as their composition.

  An edge list `e` (row 0 the sources, row 1 the destinations) turns node features `h` into the per-node SUM of the
  features of the sources of the edges arriving at the node: a row gather at the sources (a negative source counted from the
  end) scattered-and-added into zeros at the destinations. The per-node COUNT of arriving edges is the same scatter of
  ones. The mean divides the sum by `max count 1`, row by row.

  Two spellings of that mean appear: the sum TIMES the reciprocal `1 / max count 1` (computed once per node), and the sum
  DIVIDED BY `max count 1`. Over the extended reals they are one function: `max count 1` is never zero, and off zero a
  quotient IS the product with the inverse (`Cert.Sage.mul_recip_eq_div`). No finiteness of the features or of the count
  is used. The gather and the scatter are never opened: both spellings apply them to the same arrays.
-/
import proofs.«159444_j40063454937586_1_alg».proof.Proof.Gen.KernelIdeal
import proofs.«159444_j40063454937586_1_alg».proof.Proof.Spec
import Idealize.ShloMosaic.Lib.Pipeline.Value
import Idealize.ShloMosaic.Lib.ValueIdx
import Idealize.ShloMosaic.Lib.IdealHost

noncomputable section

namespace Cert.KernelIdeal.Glue

open Cert.KernelIdeal Cert.KernelIdeal.Gen Idealize.ShloMosaic Idealize.ShloMosaic.TcCoe Idealize.ShloMosaic.ValueIdx

variable {F : FTy → Type} [FloatOps F]

/-- The edges' source nodes: row 0 of the edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination nodes: row 1 of the edge list. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The gather's start rows: a negative source is counted from the end (50000 added). -/
def srcRows (e : (⟨S2x800000, .i32⟩ : BufTy).Contents (Elt F)) : (⟨S800000x1, .i32⟩ : BufTy).Contents (Elt F) :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))

/-- The scatter's rows: the destinations. -/
def dstRows (e : (⟨S2x800000, .i32⟩ : BufTy).Contents (Elt F)) : (⟨S800000x1, .i32⟩ : BufTy).Contents (Elt F) :=
  broadcastInDim S800000x1 ![0] bcast_S800000_S800000x1_0 (dst e)

/-- Per node, the sum of `h` over the sources of the arriving edges. -/
def agg (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (dstRows e)
    (Host.gather gather_S50000x128_S800000x1_S800000x128_1_0_n_n_0_1_1128 h (srcRows e))

/-- The constant one, per node. -/
def ones : (⟨S50000, .f32⟩ : BufTy).Contents (Elt F) :=
  broadcastInDim S50000 ![] bcast_S_S50000 (constant (F := F) S_ .f32 0x3F800000#32)

/-- Per node, the number of arriving edges: ones scattered-and-added at the destinations. -/
def cnt (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (dstRows e)
    (broadcastInDim S800000 ![] bcast_S_S800000 (constant (F := F) S_ .f32 0x3F800000#32))

/-- The divisor: the count, at least one. -/
def den (e : (⟨S2x800000, .i32⟩ : BufTy).Contents (Elt F)) : (⟨S50000, .f32⟩ : BufTy).Contents (Elt F) :=
  maximumf (cnt e) ones

/-- The reciprocal of the divisor. -/
def recip (e : (⟨S2x800000, .i32⟩ : BufTy).Contents (Elt F)) : (⟨S50000, .f32⟩ : BufTy).Contents (Elt F) :=
  Host.divf ones (den e)

/-- A per-node value repeated along the 128 features. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean as the sum times the reciprocal of the divisor. -/
def meanMul (e : (⟨S2x800000, .i32⟩ : BufTy).Contents (Elt F)) (h : (⟨S50000x128, .f32⟩ : BufTy).Contents (Elt F)) :
    (⟨S50000x128, .f32⟩ : BufTy).Contents (Elt F) :=
  mulf (agg e h) (spread (recip e))

/-- The mean as the sum divided by the divisor. -/
def meanDiv (e : (⟨S2x800000, .i32⟩ : BufTy).Contents (Elt F)) (h : (⟨S50000x128, .f32⟩ : BufTy).Contents (Elt F)) :
    (⟨S50000x128, .f32⟩ : BufTy).Contents (Elt F) :=
  Host.divf (agg e h) (spread (den e))

/-- The node (row) of an index of a feature array. -/
abbrev rowOf (i : S50000x128.Idx) : S50000.Idx := fun a => match a with
  | ⟨0, _⟩ => ⟨(i 0).val, (i 0).isLt⟩

/-- The column-vector index under an index of a feature array: its row, and the one column. -/
abbrev colOf (i : S50000x128.Idx) : S50000x1.Idx := fun a => match a with
  | ⟨0, _⟩ => ⟨(i 0).val, (i 0).isLt⟩
  | ⟨1, _⟩ => ⟨0, Nat.one_pos⟩

/-- The node of a column-vector index. -/
abbrev rowOfCol (k : S50000x1.Idx) : S50000.Idx := fun a => match a with
  | ⟨0, _⟩ => ⟨(k 0).val, (k 0).isLt⟩

/-- A per-node vector as a column: entry (r, 0) is the value at r. -/
theorem column_apply (y : (⟨S50000, .f32⟩ : BufTy).Contents (Elt F)) (k : S50000x1.Idx) :
    broadcastInDim S50000x1 ![0] bcast_S50000_S50000x1_0 y k = y (rowOfCol k) :=
  broadcastInDim_apply _ bcast_S50000_S50000x1_0 y k (rowOfCol k) (fun a => match a with
    | ⟨0, _⟩ => by show (k 0).val = if (50000 : Nat) = 1 then 0 else (k 0).val; rw [if_neg (by decide)])

/-- A column repeated along the features: entry (r, j) is the column's entry (r, 0). -/
theorem repeat_apply (y : (⟨S50000x1, .f32⟩ : BufTy).Contents (Elt F)) (i : S50000x128.Idx) :
    broadcastInDim S50000x128 ![0, 1] bcast_S50000x1_S50000x128_0_1 y i = y (colOf i) :=
  broadcastInDim_apply _ bcast_S50000x1_S50000x128_0_1 y i (colOf i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A spread value at (node, feature) is the value at the node. -/
theorem spread_apply (v : (⟨S50000, .f32⟩ : BufTy).Contents (Elt F)) (i : S50000x128.Idx) : spread v i = v (rowOf i) := by
  unfold spread
  exact (repeat_apply (broadcastInDim S50000x1 ![0] bcast_S50000_S50000x1_0 v) i).trans (column_apply v (colOf i))

/-- The per-node constant is the extended real one at every node. -/
theorem ones_apply (k : S50000.Idx) : ones (F := Ideal) k = (1 : EReal) := by
  unfold ones
  refine (broadcastInDim_apply _ bcast_S_S50000 _ k (fun a => a.elim0) (fun a => a.elim0)).trans ?_
  show Ideal.ofBits .f32 0x3F800000#32 = 1
  exact Ideal.ofBits_one_f32

/-- The law on arrays: for ANY sums `A` and ANY counts `c`, `A` times the spread reciprocal of `max c 1` is `A` divided by
    the spread `max c 1`, at every (node, feature). -/
theorem mul_spread_recip (A : FVec Ideal S50000x128 .f32) (c : FVec Ideal S50000 .f32) :
    mulf A (spread (Host.divf (ones (F := Ideal)) (maximumf c (ones (F := Ideal)))))
      = Host.divf A (spread (maximumf c (ones (F := Ideal)))) := by
  funext i
  have hl : mulf A (spread (Host.divf (ones (F := Ideal)) (maximumf c (ones (F := Ideal))))) i
      = A i * spread (Host.divf (ones (F := Ideal)) (maximumf c (ones (F := Ideal)))) i := rfl
  have hr : Host.divf A (spread (maximumf c (ones (F := Ideal)))) i
      = Ideal.div (A i) (spread (maximumf c (ones (F := Ideal))) i) := rfl
  rw [hl, hr, spread_apply, spread_apply]
  have hq : Host.divf (ones (F := Ideal)) (maximumf c (ones (F := Ideal))) (rowOf i)
      = Ideal.div (ones (F := Ideal) (rowOf i)) (max (c (rowOf i)) (ones (F := Ideal) (rowOf i))) := rfl
  have hm : maximumf c (ones (F := Ideal)) (rowOf i) = max (c (rowOf i)) (ones (F := Ideal) (rowOf i)) := rfl
  rw [hq, hm, ones_apply]
  exact Cert.Sage.mul_recip_eq_div _ _

/-- THE TWO MEANS ARE ONE FUNCTION over the extended reals: at every (node, feature) the sum times `1 / max count 1` is the
    sum divided by `max count 1`. -/
theorem meanMul_eq_meanDiv (e : (⟨S2x800000, .i32⟩ : BufTy).Contents (Elt Ideal)) (h : FVec Ideal S50000x128 .f32) :
    meanMul (F := Ideal) e h = meanDiv (F := Ideal) e h :=
  mul_spread_recip (agg (F := Ideal) e h) (cnt (F := Ideal) e)

end Cert.KernelIdeal.Glue

end
-- ==== Proof.RegionValue.lean ====
/-
  The three pipelined regions of the kernel, each read as ONE whole-array function of its input arrays.

  A region walks ten blocks of 5000 rows. At a block it loads 5000 x 128 rows of the neighbourhood mean and of the node
  features, the whole left and right weights and the bias, and stores (mean_blk · Wl) + b + (h_blk · Wr), clamped below at
  zero in the two hidden layers and left as it is in the output layer. Over the extended reals a format change is the
  identity and a product accumulated into the zero array is the plain finite sum over the 128 inner coordinates, so the value
  stored at row p, column q of block t is the layer's value at row 5000 t + p, column q of the whole arrays: each input block is
  its array read where the output block's rectangle says. The ten blocks tile the 50000 rows and every grid point writes its
  block back, so the output array after the region IS the layer of the region's input arrays.
-/
import proofs.«159444_j40063454937586_1_alg».proof.Proof.KernelIdealFrameP
import proofs.«159444_j40063454937586_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx

/-- The two-axis zero offset, however it is spelt. -/
theorem zero_off2 : (![0, 0] : Fin 2 → Nat) = fun _ => 0 := funext fun a => by fin_cases a <;> rfl
/-- The one-axis zero offset. -/
theorem zero_off1 : (![0] : Fin 1 → Nat) = fun _ => 0 := funext fun a => by fin_cases a; rfl

/-! ## The 128-column product read at an index -/

/-- The left operand's row is the output's row. -/
theorem lhs128_0 (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
/-- The left operand's column is the contraction coordinate. -/
theorem lhs128_1 (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
/-- The right operand's row is the contraction coordinate. -/
theorem rhs128_0 (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
/-- The right operand's column is the output's column. -/
theorem rhs128_1 (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- A block of 5000 rows times a 128 x 128 matrix, accumulated into zero, at row `p` and column `q`: the sum over the 128
    inner coordinates of the products. -/
theorem matmul128_apply (x : FVec Ideal S5000x128 .bf16) (w : FVec Ideal S128x128 .bf16) (p : Fin 5000) (q : Fin 128) :
    matmul Cert.KernelIdeal.dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row, given a unit leading axis and repeated down the 5000 rows, at row `p` and column `q` is the bias at `q`. -/
theorem bias128_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (⟨0, Nat.one_pos⟩ : Fin 1) q) (fun a => ?_)).trans ?_
  · match a with
    | ⟨0, _⟩ => rfl
    | ⟨1, _⟩ => rfl
  · refine (shapeCast_apply b shapeCasts_S128_S1x128 (ix2 (⟨0, Nat.one_pos⟩ : Fin 1) q) (ix1 q) ?_)
    rw [Shape.rowMajor_val_one, Shape.rowMajor_val_two]
    show q.val = 0 * 128 + q.val
    omega

/-- WHAT THE FIRST BODY STORES at row `p`, column `q` of its block: the row of the first block through the left weight, plus
    the bias, plus the row of the second block through the right weight, clamped below at zero. -/
theorem pay0_apply (x0 x1 : Vec Ideal S5000x128 .f32) (w0 w1 : Vec Ideal S128x128 .f32) (b : Vec Ideal S128 .f32)
    (p : Fin 5000) (q : Fin 128) :
    k0_pay1 (F := Ideal) x0 x1 w0 w1 b (ix2 p q)
      = max (((∑ k : Fin 128, x0 (ix2 p k) * w0 (ix2 k q)) + b (ix1 q)) + ∑ k : Fin 128, x1 (ix2 p k) * w1 (ix2 k q)) 0 := by
  unfold k0_pay1
  rw [maximumf_apply, addf_apply, addf_apply, broadcast_apply, matmul128_apply, matmul128_apply, bias128_apply, shapeCast_self]
  simp only [truncf_apply]
  exact congrArg (max _) Ideal.ofBits_zero_f32

variable (V : (c : Dev nD) → (b : Ref sig .tc) → Buf (Elt Ideal) ((c : Thread nD τ).loc b))

/-- Row `p` of the `n`-th block of 5000 rows is row `5000 n + p` of the 50000. -/
def blockRow (n : Nat) (hn : n < 10) (p : Fin 5000) : Fin 50000 := ⟨n * 5000 + p.val, by have := p.isLt; omega⟩

/-! ## Region 0: from the blocks to the array -/

/-- Region 0's grid has ten points. -/
theorem lt0 (t : Fin cfg0.N) : t.val < 10 := t.isLt

/-- The index maps of region 0, decided over the ten grid points: the two row-blocked inputs move with the output, whose
    row-block index is the point's number; every column-block index and every index of the weights and the bias is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first input's block at point `t` is rows `5000 t …` of its array. -/
theorem blk0_0_apply (c : Dev nD) (t : Fin cfg0.N) (p : Fin 5000) (k : Fin 128) :
    (iblk0 V c 0 t : Vec Ideal S5000x128 .f32) (ix2 p k)
      = (V c main_v24 : Vec Ideal S50000x128 .f32) (ix2 (blockRow t.val (lt0 t) p) k) := by
  obtain ⟨e0, e1, -⟩ := idx_facts0 t
  unfold iblk0
  rw [View.read_apply]
  show (V c main_v24 : Vec Ideal S50000x128 .f32) _ = _
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The second input's block at point `t` is rows `5000 t …` of its array. -/
theorem blk0_1_apply (c : Dev nD) (t : Fin cfg0.N) (p : Fin 5000) (k : Fin 128) :
    (iblk0 V c 1 t : Vec Ideal S5000x128 .f32) (ix2 p k)
      = (V c main_arg0 : Vec Ideal S50000x128 .f32) (ix2 (blockRow t.val (lt0 t) p) k) := by
  obtain ⟨-, -, e0, e1, -⟩ := idx_facts0 t
  unfold iblk0
  rw [View.read_apply]
  show (V c main_arg0 : Vec Ideal S50000x128 .f32) _ = _
  congr 1
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The left weight's block at every point is the whole matrix. -/
theorem blk0_2_apply (c : Dev nD) (t : Fin cfg0.N) (k : Fin 128) (q : Fin 128) :
    (iblk0 V c 2 t : Vec Ideal S128x128 .f32) (ix2 k q) = (V c main_arg2 : Vec Ideal S128x128 .f32) (ix2 k q) := by
  obtain ⟨-, -, -, -, e0, e1, -⟩ := idx_facts0 t
  unfold iblk0
  rw [View.read_apply]
  show (V c main_arg2 : Vec Ideal S128x128 .f32) _ = _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias's block at every point is the whole vector. -/
theorem blk0_3_apply (c : Dev nD) (t : Fin cfg0.N) (q : Fin 128) :
    (iblk0 V c 3 t : Vec Ideal S128 .f32) (ix1 q) = (V c main_arg3 : Vec Ideal S128 .f32) (ix1 q) := by
  obtain ⟨-, -, -, -, -, -, e0, -⟩ := idx_facts0 t
  unfold iblk0
  rw [View.read_apply]
  show (V c main_arg3 : Vec Ideal S128 .f32) _ = _
  congr 1
  funext a; apply Fin.ext
  match a with
  | ⟨0, _⟩ => show win0_3.index t (0 : Fin 1) * 128 + 1 * q.val = q.val; omega

/-- The right weight's block at every point is the whole matrix. -/
theorem blk0_4_apply (c : Dev nD) (t : Fin cfg0.N) (k : Fin 128) (q : Fin 128) :
    (iblk0 V c 4 t : Vec Ideal S128x128 .f32) (ix2 k q) = (V c main_arg4 : Vec Ideal S128x128 .f32) (ix2 k q) := by
  obtain ⟨-, -, -, -, -, -, -, e0, e1, -⟩ := idx_facts0 t
  unfold iblk0
  rw [View.read_apply]
  show (V c main_arg4 : Vec Ideal S128x128 .f32) _ = _
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- WHAT POINT `t` WRITES BACK is block `t` of the hidden layer of the region's input arrays. -/
theorem flushed0_eq (c : Dev nD) (t : Fin cfg0.N) :
    (dat0 (F := Ideal) V c).flushed 5 t
      = ((cfg0.win 5).blk t).view.read (Elt Ideal) (Cert.Sage.hidden (V c main_v24) (V c main_arg0) (V c main_arg2) (V c main_arg3) (V c main_arg4)) := by
  show (cfg0.win 5).cut (grid0.coords t) ((dat0 (F := Ideal) V c).after 5 t) = _
  rw [after0_5]
  unfold out0_5
  rw [View.canon_unit_zero zero_off2]
  simp only [View.ld_unit_zero (S := S5000x128) zero_off2, View.ld_unit_zero (S := S128x128) zero_off2, View.ld_unit_zero (S := S128) zero_off1]
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) (iblk0 V c 4 t) (iblk0 V c 3 t) p q).trans ?_
  obtain ⟨-, -, -, -, -, -, -, -, -, e0, e1⟩ := idx_facts0 t
  have hemb : ((View.whole main_v25).slice ((win0 5).rect t)).emb (ix2 p q) = (ix2 (blockRow t.val (lt0 t) p) q : S50000x128.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [View.read_apply, hemb]
  show _ = max (Cert.Sage.lin128 (V c main_v24) (V c main_arg0) (V c main_arg2) (V c main_arg3) (V c main_arg4) (blockRow t.val (lt0 t) p) q) 0
  unfold Cert.Sage.lin128
  simp only [blk0_0_apply V c t, blk0_1_apply V c t, blk0_2_apply V c t, blk0_3_apply V c t, blk0_4_apply V c t]

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- THE BLOCKS COVER THE ARRAY: row `r` lies in the block of grid point `r / 5000`, and every point writes its block back. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 5000 < cfg0.N := by show (i 0).val / 5000 < 10; omega
  obtain ⟨-, -, -, -, -, -, -, -, -, e0, e1⟩ := idx_facts0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- REGION 0: the output array after the region is the hidden layer of the region's input arrays. -/
theorem region0 (c : Dev nD) :
    (dat0 (F := Ideal) V c).arrAt 5 cfg0.N
      = Cert.Sage.hidden (V c main_v24) (V c main_arg0) (V c main_arg2) (V c main_arg3) (V c main_arg4) :=
  (dat0 (F := Ideal) V c).arrAt_eq_of_cover 5
    (Cert.Sage.hidden (V c main_v24) (V c main_arg0) (V c main_arg2) (V c main_arg3) (V c main_arg4))
    (fun t _ => flushed0_eq V c t) cover0

/-! ## Region 1 -/

/-- WHAT THE SECOND BODY STORES at row `p`, column `q` of its block: the same value as the first body's, of its own blocks. -/
theorem pay1_apply (x0 x1 : Vec Ideal S5000x128 .f32) (w0 w1 : Vec Ideal S128x128 .f32) (b : Vec Ideal S128 .f32)
    (p : Fin 5000) (q : Fin 128) :
    k1_pay1 (F := Ideal) x0 x1 w0 w1 b (ix2 p q)
      = max (((∑ k : Fin 128, x0 (ix2 p k) * w0 (ix2 k q)) + b (ix1 q)) + ∑ k : Fin 128, x1 (ix2 p k) * w1 (ix2 k q)) 0 := by
  unfold k1_pay1
  rw [maximumf_apply, addf_apply, addf_apply, broadcast_apply, matmul128_apply, matmul128_apply, bias128_apply, shapeCast_self, shapeCast_self]
  simp only [truncf_apply]
  exact congrArg (max _) Ideal.ofBits_zero_f32
/-! ### From the blocks to the array -/

/-- Region 1's grid has ten points. -/
theorem lt1 (t : Fin cfg1.N) : t.val < 10 := t.isLt

/-- The index maps of region 1, decided over the ten grid points: the two row-blocked inputs move with the output, whose
    row-block index is the point's number; every column-block index and every index of the weights and the bias is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first input's block at point `t` is rows `5000 t …` of its array. -/
theorem blk1_0_apply (c : Dev nD) (t : Fin cfg1.N) (p : Fin 5000) (k : Fin 128) :
    (iblk1 V c 0 t : Vec Ideal S5000x128 .f32) (ix2 p k)
      = (V c main_v38 : Vec Ideal S50000x128 .f32) (ix2 (blockRow t.val (lt1 t) p) k) := by
  obtain ⟨e0, e1, -⟩ := idx_facts1 t
  unfold iblk1
  rw [View.read_apply]
  show (V c main_v38 : Vec Ideal S50000x128 .f32) _ = _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The second input's block at point `t` is rows `5000 t …` of its array. -/
theorem blk1_1_apply (c : Dev nD) (t : Fin cfg1.N) (p : Fin 5000) (k : Fin 128) :
    (iblk1 V c 1 t : Vec Ideal S5000x128 .f32) (ix2 p k)
      = (V c main_v25 : Vec Ideal S50000x128 .f32) (ix2 (blockRow t.val (lt1 t) p) k) := by
  obtain ⟨-, -, e0, e1, -⟩ := idx_facts1 t
  unfold iblk1
  rw [View.read_apply]
  show (V c main_v25 : Vec Ideal S50000x128 .f32) _ = _
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The left weight's block at every point is the whole matrix. -/
theorem blk1_2_apply (c : Dev nD) (t : Fin cfg1.N) (k : Fin 128) (q : Fin 128) :
    (iblk1 V c 2 t : Vec Ideal S128x128 .f32) (ix2 k q) = (V c main_arg5 : Vec Ideal S128x128 .f32) (ix2 k q) := by
  obtain ⟨-, -, -, -, e0, e1, -⟩ := idx_facts1 t
  unfold iblk1
  rw [View.read_apply]
  show (V c main_arg5 : Vec Ideal S128x128 .f32) _ = _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The bias's block at every point is the whole vector. -/
theorem blk1_3_apply (c : Dev nD) (t : Fin cfg1.N) (q : Fin 128) :
    (iblk1 V c 3 t : Vec Ideal S128 .f32) (ix1 q) = (V c main_arg6 : Vec Ideal S128 .f32) (ix1 q) := by
  obtain ⟨-, -, -, -, -, -, e0, -⟩ := idx_facts1 t
  unfold iblk1
  rw [View.read_apply]
  show (V c main_arg6 : Vec Ideal S128 .f32) _ = _
  congr 1
  funext a; apply Fin.ext
  match a with
  | ⟨0, _⟩ => show win1_3.index t (0 : Fin 1) * 128 + 1 * q.val = q.val; omega

/-- The right weight's block at every point is the whole matrix. -/
theorem blk1_4_apply (c : Dev nD) (t : Fin cfg1.N) (k : Fin 128) (q : Fin 128) :
    (iblk1 V c 4 t : Vec Ideal S128x128 .f32) (ix2 k q) = (V c main_arg7 : Vec Ideal S128x128 .f32) (ix2 k q) := by
  obtain ⟨-, -, -, -, -, -, -, e0, e1, -⟩ := idx_facts1 t
  unfold iblk1
  rw [View.read_apply]
  show (V c main_arg7 : Vec Ideal S128x128 .f32) _ = _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- WHAT POINT `t` WRITES BACK is block `t` of the hidden layer of the region's input arrays. -/
theorem flushed1_eq (c : Dev nD) (t : Fin cfg1.N) :
    (dat1 (F := Ideal) V c).flushed 5 t
      = ((cfg1.win 5).blk t).view.read (Elt Ideal) (Cert.Sage.hidden (V c main_v38) (V c main_v25) (V c main_arg5) (V c main_arg6) (V c main_arg7)) := by
  show (cfg1.win 5).cut (grid1.coords t) ((dat1 (F := Ideal) V c).after 5 t) = _
  rw [after1_5]
  unfold out1_5
  rw [View.canon_unit_zero zero_off2]
  simp only [View.ld_unit_zero (S := S5000x128) zero_off2, View.ld_unit_zero (S := S128x128) zero_off2, View.ld_unit_zero (S := S128) zero_off1]
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 4 t) (iblk1 V c 3 t) p q).trans ?_
  obtain ⟨-, -, -, -, -, -, -, -, -, e0, e1⟩ := idx_facts1 t
  have hemb : ((View.whole main_v39).slice ((win1 5).rect t)).emb (ix2 p q) = (ix2 (blockRow t.val (lt1 t) p) q : S50000x128.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [View.read_apply, hemb]
  show _ = max (Cert.Sage.lin128 (V c main_v38) (V c main_v25) (V c main_arg5) (V c main_arg6) (V c main_arg7) (blockRow t.val (lt1 t) p) q) 0
  unfold Cert.Sage.lin128
  simp only [blk1_0_apply V c t, blk1_1_apply V c t, blk1_2_apply V c t, blk1_3_apply V c t, blk1_4_apply V c t]

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- THE BLOCKS COVER THE ARRAY: row `r` lies in the block of grid point `r / 5000`, and every point writes its block back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < cfg1.N := by show (i 0).val / 5000 < 10; omega
  obtain ⟨-, -, -, -, -, -, -, -, -, e0, e1⟩ := idx_facts1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]; omega

/-- REGION 1: the output array after the region is the hidden layer of the region's input arrays. -/
theorem region1 (c : Dev nD) :
    (dat1 (F := Ideal) V c).arrAt 5 cfg1.N
      = Cert.Sage.hidden (V c main_v38) (V c main_v25) (V c main_arg5) (V c main_arg6) (V c main_arg7) :=
  (dat1 (F := Ideal) V c).arrAt_eq_of_cover 5
    (Cert.Sage.hidden (V c main_v38) (V c main_v25) (V c main_arg5) (V c main_arg6) (V c main_arg7))
    (fun t _ => flushed1_eq V c t) cover1

/-! ## Region 2

### The 64-column product read at an index -/

/-- The left operand's row is the output's row. -/
theorem lhs64_0 (i : S5000x64.Idx) (q : Cert.KernelIdeal.dot_S5000x128_S128x64_S5000x64_1_0_0_1_n_n.contr.Idx) :
    (Cert.KernelIdeal.dot_S5000x128_S128x64_S5000x64_1_0_0_1_n_n.lhsIdx i q 0).val = (i 0).val := by
  unfold DotDims.lhsIdx
  rw [dif_neg (show ¬(0 : Fin S5000x128.rank) ∈ Cert.KernelIdeal.dot_S5000x128_S128x64_S5000x64_1_0_0_1_n_n.lhsBatch by decide), dif_pos (show (0 : Fin S5000x128.rank) ∈ Cert.KernelIdeal.dot_S5000x128_S128x64_S5000x64_1_0_0_1_n_n.lhsNonContracting by decide)]
  rfl
/-- The left operand's column is the contraction coordinate. -/
theorem lhs64_1 (i : S5000x64.Idx) (q : Cert.KernelIdeal.dot_S5000x128_S128x64_S5000x64_1_0_0_1_n_n.contr.Idx) :
    (Cert.KernelIdeal.dot_S5000x128_S128x64_S5000x64_1_0_0_1_n_n.lhsIdx i q 1).val = (q ⟨0, by decide⟩).val :=
  Cert.KernelIdeal.dot_S5000x128_S128x64_S5000x64_1_0_0_1_n_n.lhsIdx_val_of_single rfl i q
/-- The right operand's row is the contraction coordinate. -/
theorem rhs64_0 (i : S5000x64.Idx) (q : Cert.KernelIdeal.dot_S5000x128_S128x64_S5000x64_1_0_0_1_n_n.contr.Idx) :
    (Cert.KernelIdeal.dot_S5000x128_S128x64_S5000x64_1_0_0_1_n_n.rhsIdx i q 0).val = (q ⟨0, by decide⟩).val :=
  Cert.KernelIdeal.dot_S5000x128_S128x64_S5000x64_1_0_0_1_n_n.rhsIdx_val_of_single rfl i q
/-- The right operand's column is the output's column. -/
theorem rhs64_1 (i : S5000x64.Idx) (q : Cert.KernelIdeal.dot_S5000x128_S128x64_S5000x64_1_0_0_1_n_n.contr.Idx) :
    (Cert.KernelIdeal.dot_S5000x128_S128x64_S5000x64_1_0_0_1_n_n.rhsIdx i q 1).val = (i 1).val := by
  unfold DotDims.rhsIdx
  rw [dif_neg (show ¬(1 : Fin S128x64.rank) ∈ Cert.KernelIdeal.dot_S5000x128_S128x64_S5000x64_1_0_0_1_n_n.rhsBatch by decide), dif_pos (show (1 : Fin S128x64.rank) ∈ Cert.KernelIdeal.dot_S5000x128_S128x64_S5000x64_1_0_0_1_n_n.rhsNonContracting by decide)]
  rfl

/-- A block of 5000 rows times a 128 x 64 matrix, accumulated into zero, at row `p` and column `q`: the sum over the 128
    inner coordinates of the products. -/
theorem matmul64_apply (x : FVec Ideal S5000x128 .bf16) (w : FVec Ideal S128x64 .bf16) (p : Fin 5000) (q : Fin 64) :
    matmul Cert.KernelIdeal.dot_S5000x128_S128x64_S5000x64_1_0_0_1_n_n none x w (constant (F := Ideal) S5000x64 .f32 0x00000000#32) (ix2 p q)
      = ∑ k : Fin 128, x (ix2 p k) * w (ix2 k q) := by
  simp only [matmul]
  rw [Ideal.matmul_constant_zero_apply, ← Equiv.sum_comp (ValueIdx.contrEquiv1 Cert.KernelIdeal.dot_S5000x128_S128x64_S5000x64_1_0_0_1_n_n 128 rfl rfl).symm]
  refine Finset.sum_congr rfl fun k _ => ?_
  have hk := ValueIdx.contrEquiv1_symm_val Cert.KernelIdeal.dot_S5000x128_S128x64_S5000x64_1_0_0_1_n_n 128 rfl rfl k
  have el : Cert.KernelIdeal.dot_S5000x128_S128x64_S5000x64_1_0_0_1_n_n.lhsIdx (ix2 p q) ((ValueIdx.contrEquiv1 Cert.KernelIdeal.dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : Cert.KernelIdeal.dot_S5000x128_S128x64_S5000x64_1_0_0_1_n_n.rhsIdx (ix2 p q) ((ValueIdx.contrEquiv1 Cert.KernelIdeal.dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- The 64-wide bias row, given a unit leading axis and repeated down the 5000 rows, at row `p` and column `q` is the bias at `q`. -/
theorem bias64_apply (b : Vec Ideal S64 .f32) (p : Fin 5000) (q : Fin 64) :
    broadcastTo S5000x64 (shapeCast S1x64 b shapeCasts_S64_S1x64) broadcasts_S1x64_S5000x64 (ix2 p q) = b (ix1 q) := by
  refine (broadcastTo_apply _ broadcasts_S1x64_S5000x64 (ix2 p q) (ix2 (⟨0, Nat.one_pos⟩ : Fin 1) q) (fun a => ?_)).trans ?_
  · match a with
    | ⟨0, _⟩ => rfl
    | ⟨1, _⟩ => rfl
  · refine (shapeCast_apply b shapeCasts_S64_S1x64 (ix2 (⟨0, Nat.one_pos⟩ : Fin 1) q) (ix1 q) ?_)
    rw [Shape.rowMajor_val_one, Shape.rowMajor_val_two]
    show q.val = 0 * 64 + q.val
    omega

/-- WHAT THE THIRD BODY STORES at row `p`, column `q` of its block: the row of the first block through the left weight, plus
    the bias, plus the row of the second block through the right weight; no clamp. -/
theorem pay2_apply (x0 x1 : Vec Ideal S5000x128 .f32) (w0 w1 : Vec Ideal S128x64 .f32) (b : Vec Ideal S64 .f32)
    (p : Fin 5000) (q : Fin 64) :
    k2_pay1 (F := Ideal) x0 x1 w0 w1 b (ix2 p q)
      = ((∑ k : Fin 128, x0 (ix2 p k) * w0 (ix2 k q)) + b (ix1 q)) + ∑ k : Fin 128, x1 (ix2 p k) * w1 (ix2 k q) := by
  unfold k2_pay1
  rw [addf_apply, addf_apply, matmul64_apply, matmul64_apply, bias64_apply, shapeCast_self, shapeCast_self]
  simp only [truncf_apply]
/-! ### From the blocks to the array -/

/-- Region 2's grid has ten points. -/
theorem lt2 (t : Fin cfg2.N) : t.val < 10 := t.isLt

/-- The index maps of region 2, decided over the ten grid points: the two row-blocked inputs move with the output, whose
    row-block index is the point's number; every column-block index and every index of the weights and the bias is zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first input's block at point `t` is rows `5000 t …` of its array. -/
theorem blk2_0_apply (c : Dev nD) (t : Fin cfg2.N) (p : Fin 5000) (k : Fin 128) :
    (iblk2 V c 0 t : Vec Ideal S5000x128 .f32) (ix2 p k)
      = (V c main_v52 : Vec Ideal S50000x128 .f32) (ix2 (blockRow t.val (lt2 t) p) k) := by
  obtain ⟨e0, e1, -⟩ := idx_facts2 t
  unfold iblk2
  rw [View.read_apply]
  show (V c main_v52 : Vec Ideal S50000x128 .f32) _ = _
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The second input's block at point `t` is rows `5000 t …` of its array. -/
theorem blk2_1_apply (c : Dev nD) (t : Fin cfg2.N) (p : Fin 5000) (k : Fin 128) :
    (iblk2 V c 1 t : Vec Ideal S5000x128 .f32) (ix2 p k)
      = (V c main_v39 : Vec Ideal S50000x128 .f32) (ix2 (blockRow t.val (lt2 t) p) k) := by
  obtain ⟨-, -, e0, e1, -⟩ := idx_facts2 t
  unfold iblk2
  rw [View.read_apply]
  show (V c main_v39 : Vec Ideal S50000x128 .f32) _ = _
  congr 1
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- The left weight's block at every point is the whole matrix. -/
theorem blk2_2_apply (c : Dev nD) (t : Fin cfg2.N) (k : Fin 128) (q : Fin 64) :
    (iblk2 V c 2 t : Vec Ideal S128x64 .f32) (ix2 k q) = (V c main_arg8 : Vec Ideal S128x64 .f32) (ix2 k q) := by
  obtain ⟨-, -, -, -, e0, e1, -⟩ := idx_facts2 t
  unfold iblk2
  rw [View.read_apply]
  show (V c main_arg8 : Vec Ideal S128x64 .f32) _ = _
  congr 1
  funext a; apply Fin.ext
  match a with
  | ⟨0, _⟩ => show win2_2.index t (0 : Fin 2) * 128 + 1 * k.val = k.val; omega
  | ⟨1, _⟩ => show win2_2.index t (1 : Fin 2) * 64 + 1 * q.val = q.val; omega

/-- The bias's block at every point is the whole vector. -/
theorem blk2_3_apply (c : Dev nD) (t : Fin cfg2.N) (q : Fin 64) :
    (iblk2 V c 3 t : Vec Ideal S64 .f32) (ix1 q) = (V c main_arg9 : Vec Ideal S64 .f32) (ix1 q) := by
  obtain ⟨-, -, -, -, -, -, e0, -⟩ := idx_facts2 t
  unfold iblk2
  rw [View.read_apply]
  show (V c main_arg9 : Vec Ideal S64 .f32) _ = _
  congr 1
  funext a; apply Fin.ext
  match a with
  | ⟨0, _⟩ => show win2_3.index t (0 : Fin 1) * 64 + 1 * q.val = q.val; omega

/-- The right weight's block at every point is the whole matrix. -/
theorem blk2_4_apply (c : Dev nD) (t : Fin cfg2.N) (k : Fin 128) (q : Fin 64) :
    (iblk2 V c 4 t : Vec Ideal S128x64 .f32) (ix2 k q) = (V c main_arg10 : Vec Ideal S128x64 .f32) (ix2 k q) := by
  obtain ⟨-, -, -, -, -, -, -, e0, e1, -⟩ := idx_facts2 t
  unfold iblk2
  rw [View.read_apply]
  show (V c main_arg10 : Vec Ideal S128x64 .f32) _ = _
  congr 1
  funext a; apply Fin.ext
  match a with
  | ⟨0, _⟩ => show win2_4.index t (0 : Fin 2) * 128 + 1 * k.val = k.val; omega
  | ⟨1, _⟩ => show win2_4.index t (1 : Fin 2) * 64 + 1 * q.val = q.val; omega

/-- WHAT POINT `t` WRITES BACK is block `t` of the output layer of the region's input arrays. -/
theorem flushed2_eq (c : Dev nD) (t : Fin cfg2.N) :
    (dat2 (F := Ideal) V c).flushed 5 t
      = ((cfg2.win 5).blk t).view.read (Elt Ideal) (Cert.Sage.output (V c main_v52) (V c main_v39) (V c main_arg8) (V c main_arg9) (V c main_arg10)) := by
  show (cfg2.win 5).cut (grid2.coords t) ((dat2 (F := Ideal) V c).after 5 t) = _
  rw [after2_5]
  unfold out2_5
  rw [View.canon_unit_zero zero_off2]
  simp only [View.ld_unit_zero (S := S5000x128) zero_off2, View.ld_unit_zero (S := S128x64) zero_off2, View.ld_unit_zero (S := S64) zero_off1]
  funext j
  obtain ⟨p, q, rfl⟩ : ∃ (p : Fin 5000) (q : Fin 64), j = ix2 p q := ⟨j 0, j 1, eq_ix2 j⟩
  refine (pay2_apply (iblk2 V c 0 t) (iblk2 V c 1 t) (iblk2 V c 2 t) (iblk2 V c 4 t) (iblk2 V c 3 t) p q).trans ?_
  obtain ⟨-, -, -, -, -, -, -, -, -, e0, e1⟩ := idx_facts2 t
  have hemb : ((View.whole main_v53).slice ((win2 5).rect t)).emb (ix2 p q) = (ix2 (blockRow t.val (lt2 t) p) q : S50000x64.Idx) := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  rw [View.read_apply, hemb]
  show _ = Cert.Sage.lin64 (V c main_v52) (V c main_v39) (V c main_arg8) (V c main_arg9) (V c main_arg10) (blockRow t.val (lt2 t) p) q
  unfold Cert.Sage.lin64
  simp only [blk2_0_apply V c t, blk2_1_apply V c t, blk2_2_apply V c t, blk2_3_apply V c t, blk2_4_apply V c t]

/-- An index of the output array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v53).slice (win2_5.rect t)).set ↔ _
  rw [View.set_slice_whole, Rect.mem_set_unit]
  exact Iff.rfl

/-- THE BLOCKS COVER THE ARRAY: row `r` lies in the block of grid point `r / 5000`, and every point writes its block back. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hlt : (i 0).val / 5000 < cfg2.N := by show (i 0).val / 5000 < 10; omega
  obtain ⟨-, -, -, -, -, -, -, -, -, e0, e1⟩ := idx_facts2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e1]; omega

/-- REGION 2: the output array after the region is the output layer of the region's input arrays. -/
theorem region2 (c : Dev nD) :
    (dat2 (F := Ideal) V c).arrAt 5 cfg2.N
      = Cert.Sage.output (V c main_v52) (V c main_v39) (V c main_arg8) (V c main_arg9) (V c main_arg10) :=
  (dat2 (F := Ideal) V c).arrAt_eq_of_cover 5
    (Cert.Sage.output (V c main_v52) (V c main_v39) (V c main_arg8) (V c main_arg9) (V c main_arg10))
    (fun t _ => flushed2_eq V c t) cover2

end Cert.KernelIdeal.RegionValue

end
-- ==== Proof.Chain.lean ====
/-
  The kernel program's result array, read through its three regions and the host operations between them.

  Between the regions the host computes, from the edge list, the sources, the destinations and the reciprocal of `max count 1`
  ONCE (before the first region) and, before each region, the mean-aggregated features of the previous layer's output as
  "sum times reciprocal" (`Glue.meanMul`). No later host operation and no region overwrites the sources, the destinations, the
  reciprocal or a weight: each is still what it was when the next stretch reads it. Each region leaves in its output array the
  layer of Spec.lean applied to its five input arrays (the three region facts, taken here as hypotheses). Chaining the three:
  the program's result is `Cert.Sage.net` over `Glue.meanMul` of the edge list, of the eleven argument arrays.
-/
import proofs.«159444_j40063454937586_1_alg».proof.Proof.KernelIdealRun
import proofs.«159444_j40063454937586_1_alg».proof.Proof.Glue
import proofs.«159444_j40063454937586_1_alg».proof.Proof.Net

set_option maxRecDepth 16384

noncomputable section

namespace Cert.KernelIdeal.Chain

open Cert.KernelIdeal Cert.KernelIdeal.Gen Cert.KernelIdeal.GenP Cert.KernelIdeal.Glue
open Idealize.ShloMosaic Idealize.ShloMosaic.TcCoe Idealize.SL.Sem Idealize.ShloMosaic.StableHlo

/-! ## What the host stretches leave, for any float family -/

section Host

variable {F : FTy → Type} [FloatOps F] (m : (ℓ : Loc nD τ sig) → Buf (Elt F) ℓ) (ρ : Dev nD → PrngReg) (c : Dev nD)

/-- After the first host stretch: the sources. -/
theorem W1_main_v1 : W1 m ρ c (Proc.devRef .tc main_v1) = src (m ((c : Thread nD τ).loc main_arg1)) := by
  show StableHlo.after hostOps0 (W0 m ρ c) (Proc.devRef .tc main_v1) = _
  unfold hostOps0
  after_results_simp <;> rfl
/-- After the first host stretch: the destinations. -/
theorem W1_main_v3 : W1 m ρ c (Proc.devRef .tc main_v3) = dst (m ((c : Thread nD τ).loc main_arg1)) := by
  show StableHlo.after hostOps0 (W0 m ρ c) (Proc.devRef .tc main_v3) = _
  unfold hostOps0
  after_results_simp <;> rfl
/-- After the first host stretch: the reciprocal of the divisor. -/
theorem W1_main_v11 : W1 m ρ c (Proc.devRef .tc main_v11) = recip (m ((c : Thread nD τ).loc main_arg1)) := by
  show StableHlo.after hostOps0 (W0 m ρ c) (Proc.devRef .tc main_v11) = _
  unfold hostOps0
  after_results_simp <;> rfl
/-- After the first host stretch: argument 0. -/
theorem W1_main_arg0 : W1 m ρ c (Proc.devRef .tc main_arg0) = m ((c : Thread nD τ).loc main_arg0) := by
  show StableHlo.after hostOps0 (W0 m ρ c) (Proc.devRef .tc main_arg0) = _
  unfold hostOps0
  after_results_simp <;> rfl
/-- After the first host stretch: argument 2. -/
theorem W1_main_arg2 : W1 m ρ c (Proc.devRef .tc main_arg2) = m ((c : Thread nD τ).loc main_arg2) := by
  show StableHlo.after hostOps0 (W0 m ρ c) (Proc.devRef .tc main_arg2) = _
  unfold hostOps0
  after_results_simp <;> rfl
/-- After the first host stretch: argument 3. -/
theorem W1_main_arg3 : W1 m ρ c (Proc.devRef .tc main_arg3) = m ((c : Thread nD τ).loc main_arg3) := by
  show StableHlo.after hostOps0 (W0 m ρ c) (Proc.devRef .tc main_arg3) = _
  unfold hostOps0
  after_results_simp <;> rfl
/-- After the first host stretch: argument 4. -/
theorem W1_main_arg4 : W1 m ρ c (Proc.devRef .tc main_arg4) = m ((c : Thread nD τ).loc main_arg4) := by
  show StableHlo.after hostOps0 (W0 m ρ c) (Proc.devRef .tc main_arg4) = _
  unfold hostOps0
  after_results_simp <;> rfl
/-- After the first host stretch: argument 5. -/
theorem W1_main_arg5 : W1 m ρ c (Proc.devRef .tc main_arg5) = m ((c : Thread nD τ).loc main_arg5) := by
  show StableHlo.after hostOps0 (W0 m ρ c) (Proc.devRef .tc main_arg5) = _
  unfold hostOps0
  after_results_simp <;> rfl
/-- After the first host stretch: argument 6. -/
theorem W1_main_arg6 : W1 m ρ c (Proc.devRef .tc main_arg6) = m ((c : Thread nD τ).loc main_arg6) := by
  show StableHlo.after hostOps0 (W0 m ρ c) (Proc.devRef .tc main_arg6) = _
  unfold hostOps0
  after_results_simp <;> rfl
/-- After the first host stretch: argument 7. -/
theorem W1_main_arg7 : W1 m ρ c (Proc.devRef .tc main_arg7) = m ((c : Thread nD τ).loc main_arg7) := by
  show StableHlo.after hostOps0 (W0 m ρ c) (Proc.devRef .tc main_arg7) = _
  unfold hostOps0
  after_results_simp <;> rfl
/-- After the first host stretch: argument 8. -/
theorem W1_main_arg8 : W1 m ρ c (Proc.devRef .tc main_arg8) = m ((c : Thread nD τ).loc main_arg8) := by
  show StableHlo.after hostOps0 (W0 m ρ c) (Proc.devRef .tc main_arg8) = _
  unfold hostOps0
  after_results_simp <;> rfl
/-- After the first host stretch: argument 9. -/
theorem W1_main_arg9 : W1 m ρ c (Proc.devRef .tc main_arg9) = m ((c : Thread nD τ).loc main_arg9) := by
  show StableHlo.after hostOps0 (W0 m ρ c) (Proc.devRef .tc main_arg9) = _
  unfold hostOps0
  after_results_simp <;> rfl
/-- After the first host stretch: argument 10. -/
theorem W1_main_arg10 : W1 m ρ c (Proc.devRef .tc main_arg10) = m ((c : Thread nD τ).loc main_arg10) := by
  show StableHlo.after hostOps0 (W0 m ρ c) (Proc.devRef .tc main_arg10) = _
  unfold hostOps0
  after_results_simp <;> rfl
/-- After the first host stretch: the first layer's mean-aggregated input. -/
theorem W1_main_v24 : W1 m ρ c (Proc.devRef .tc main_v24) = meanMul (m ((c : Thread nD τ).loc main_arg1)) (m ((c : Thread nD τ).loc main_arg0)) := by
  show StableHlo.after hostOps0 (W0 m ρ c) (Proc.devRef .tc main_v24) = _
  unfold hostOps0
  after_results_simp <;> rfl

/-! Region 0 writes only its own output array. -/
theorem W2_main_v1 : W2 m ρ c (Proc.devRef .tc main_v1) = src (m ((c : Thread nD τ).loc main_arg1)) :=
  (W2_of_ne m ρ c main_v1 (by decide)).trans (W1_main_v1 m ρ c)
theorem W2_main_v3 : W2 m ρ c (Proc.devRef .tc main_v3) = dst (m ((c : Thread nD τ).loc main_arg1)) :=
  (W2_of_ne m ρ c main_v3 (by decide)).trans (W1_main_v3 m ρ c)
theorem W2_main_v11 : W2 m ρ c (Proc.devRef .tc main_v11) = recip (m ((c : Thread nD τ).loc main_arg1)) :=
  (W2_of_ne m ρ c main_v11 (by decide)).trans (W1_main_v11 m ρ c)
theorem W2_main_arg5 : W2 m ρ c (Proc.devRef .tc main_arg5) = m ((c : Thread nD τ).loc main_arg5) :=
  (W2_of_ne m ρ c main_arg5 (by decide)).trans (W1_main_arg5 m ρ c)
theorem W2_main_arg6 : W2 m ρ c (Proc.devRef .tc main_arg6) = m ((c : Thread nD τ).loc main_arg6) :=
  (W2_of_ne m ρ c main_arg6 (by decide)).trans (W1_main_arg6 m ρ c)
theorem W2_main_arg7 : W2 m ρ c (Proc.devRef .tc main_arg7) = m ((c : Thread nD τ).loc main_arg7) :=
  (W2_of_ne m ρ c main_arg7 (by decide)).trans (W1_main_arg7 m ρ c)
theorem W2_main_arg8 : W2 m ρ c (Proc.devRef .tc main_arg8) = m ((c : Thread nD τ).loc main_arg8) :=
  (W2_of_ne m ρ c main_arg8 (by decide)).trans (W1_main_arg8 m ρ c)
theorem W2_main_arg9 : W2 m ρ c (Proc.devRef .tc main_arg9) = m ((c : Thread nD τ).loc main_arg9) :=
  (W2_of_ne m ρ c main_arg9 (by decide)).trans (W1_main_arg9 m ρ c)
theorem W2_main_arg10 : W2 m ρ c (Proc.devRef .tc main_arg10) = m ((c : Thread nD τ).loc main_arg10) :=
  (W2_of_ne m ρ c main_arg10 (by decide)).trans (W1_main_arg10 m ρ c)

/-! The second host stretch writes none of them. -/
theorem W3_main_v1 : W3 m ρ c (Proc.devRef .tc main_v1) = src (m ((c : Thread nD τ).loc main_arg1)) := by
  have h : StableHlo.after hostOps1 (W2 m ρ c) (Proc.devRef .tc main_v1) = W2 m ρ c (Proc.devRef .tc main_v1) := by
    unfold hostOps1
    after_results_simp <;> rfl
  exact h.trans (W2_main_v1 m ρ c)
theorem W3_main_v3 : W3 m ρ c (Proc.devRef .tc main_v3) = dst (m ((c : Thread nD τ).loc main_arg1)) := by
  have h : StableHlo.after hostOps1 (W2 m ρ c) (Proc.devRef .tc main_v3) = W2 m ρ c (Proc.devRef .tc main_v3) := by
    unfold hostOps1
    after_results_simp <;> rfl
  exact h.trans (W2_main_v3 m ρ c)
theorem W3_main_v11 : W3 m ρ c (Proc.devRef .tc main_v11) = recip (m ((c : Thread nD τ).loc main_arg1)) := by
  have h : StableHlo.after hostOps1 (W2 m ρ c) (Proc.devRef .tc main_v11) = W2 m ρ c (Proc.devRef .tc main_v11) := by
    unfold hostOps1
    after_results_simp <;> rfl
  exact h.trans (W2_main_v11 m ρ c)
theorem W3_main_arg5 : W3 m ρ c (Proc.devRef .tc main_arg5) = m ((c : Thread nD τ).loc main_arg5) := by
  have h : StableHlo.after hostOps1 (W2 m ρ c) (Proc.devRef .tc main_arg5) = W2 m ρ c (Proc.devRef .tc main_arg5) := by
    unfold hostOps1
    after_results_simp <;> rfl
  exact h.trans (W2_main_arg5 m ρ c)
theorem W3_main_arg6 : W3 m ρ c (Proc.devRef .tc main_arg6) = m ((c : Thread nD τ).loc main_arg6) := by
  have h : StableHlo.after hostOps1 (W2 m ρ c) (Proc.devRef .tc main_arg6) = W2 m ρ c (Proc.devRef .tc main_arg6) := by
    unfold hostOps1
    after_results_simp <;> rfl
  exact h.trans (W2_main_arg6 m ρ c)
theorem W3_main_arg7 : W3 m ρ c (Proc.devRef .tc main_arg7) = m ((c : Thread nD τ).loc main_arg7) := by
  have h : StableHlo.after hostOps1 (W2 m ρ c) (Proc.devRef .tc main_arg7) = W2 m ρ c (Proc.devRef .tc main_arg7) := by
    unfold hostOps1
    after_results_simp <;> rfl
  exact h.trans (W2_main_arg7 m ρ c)
theorem W3_main_arg8 : W3 m ρ c (Proc.devRef .tc main_arg8) = m ((c : Thread nD τ).loc main_arg8) := by
  have h : StableHlo.after hostOps1 (W2 m ρ c) (Proc.devRef .tc main_arg8) = W2 m ρ c (Proc.devRef .tc main_arg8) := by
    unfold hostOps1
    after_results_simp <;> rfl
  exact h.trans (W2_main_arg8 m ρ c)
theorem W3_main_arg9 : W3 m ρ c (Proc.devRef .tc main_arg9) = m ((c : Thread nD τ).loc main_arg9) := by
  have h : StableHlo.after hostOps1 (W2 m ρ c) (Proc.devRef .tc main_arg9) = W2 m ρ c (Proc.devRef .tc main_arg9) := by
    unfold hostOps1
    after_results_simp <;> rfl
  exact h.trans (W2_main_arg9 m ρ c)
theorem W3_main_arg10 : W3 m ρ c (Proc.devRef .tc main_arg10) = m ((c : Thread nD τ).loc main_arg10) := by
  have h : StableHlo.after hostOps1 (W2 m ρ c) (Proc.devRef .tc main_arg10) = W2 m ρ c (Proc.devRef .tc main_arg10) := by
    unfold hostOps1
    after_results_simp <;> rfl
  exact h.trans (W2_main_arg10 m ρ c)
/-- The second stretch keeps the first region's output … -/
theorem W3_main_v25 : W3 m ρ c (Proc.devRef .tc main_v25) = W2 m ρ c (Proc.devRef .tc main_v25) := by
  show StableHlo.after hostOps1 (W2 m ρ c) (Proc.devRef .tc main_v25) = _
  unfold hostOps1
  after_results_simp <;> rfl
/-- … and aggregates it: the second layer's mean-aggregated input. -/
theorem W3_main_v38 : W3 m ρ c (Proc.devRef .tc main_v38) = meanMul (m ((c : Thread nD τ).loc main_arg1)) (W2 m ρ c (Proc.devRef .tc main_v25)) := by
  show StableHlo.after hostOps1 (W2 m ρ c) (Proc.devRef .tc main_v38) = _
  unfold hostOps1
  after_results_simp
  rw [W2_main_v1, W2_main_v3, W2_main_v11]
  rfl

/-! Region 1 writes only its own output array. -/
theorem W4_main_v1 : W4 m ρ c (Proc.devRef .tc main_v1) = src (m ((c : Thread nD τ).loc main_arg1)) :=
  (W4_of_ne m ρ c main_v1 (by decide)).trans (W3_main_v1 m ρ c)
theorem W4_main_v3 : W4 m ρ c (Proc.devRef .tc main_v3) = dst (m ((c : Thread nD τ).loc main_arg1)) :=
  (W4_of_ne m ρ c main_v3 (by decide)).trans (W3_main_v3 m ρ c)
theorem W4_main_v11 : W4 m ρ c (Proc.devRef .tc main_v11) = recip (m ((c : Thread nD τ).loc main_arg1)) :=
  (W4_of_ne m ρ c main_v11 (by decide)).trans (W3_main_v11 m ρ c)
theorem W4_main_arg8 : W4 m ρ c (Proc.devRef .tc main_arg8) = m ((c : Thread nD τ).loc main_arg8) :=
  (W4_of_ne m ρ c main_arg8 (by decide)).trans (W3_main_arg8 m ρ c)
theorem W4_main_arg9 : W4 m ρ c (Proc.devRef .tc main_arg9) = m ((c : Thread nD τ).loc main_arg9) :=
  (W4_of_ne m ρ c main_arg9 (by decide)).trans (W3_main_arg9 m ρ c)
theorem W4_main_arg10 : W4 m ρ c (Proc.devRef .tc main_arg10) = m ((c : Thread nD τ).loc main_arg10) :=
  (W4_of_ne m ρ c main_arg10 (by decide)).trans (W3_main_arg10 m ρ c)

/-! The third host stretch writes none of the weights it is followed by. -/
theorem W5_main_arg8 : W5 m ρ c (Proc.devRef .tc main_arg8) = m ((c : Thread nD τ).loc main_arg8) := by
  have h : StableHlo.after hostOps2 (W4 m ρ c) (Proc.devRef .tc main_arg8) = W4 m ρ c (Proc.devRef .tc main_arg8) := by
    unfold hostOps2
    after_results_simp <;> rfl
  exact h.trans (W4_main_arg8 m ρ c)
theorem W5_main_arg9 : W5 m ρ c (Proc.devRef .tc main_arg9) = m ((c : Thread nD τ).loc main_arg9) := by
  have h : StableHlo.after hostOps2 (W4 m ρ c) (Proc.devRef .tc main_arg9) = W4 m ρ c (Proc.devRef .tc main_arg9) := by
    unfold hostOps2
    after_results_simp <;> rfl
  exact h.trans (W4_main_arg9 m ρ c)
theorem W5_main_arg10 : W5 m ρ c (Proc.devRef .tc main_arg10) = m ((c : Thread nD τ).loc main_arg10) := by
  have h : StableHlo.after hostOps2 (W4 m ρ c) (Proc.devRef .tc main_arg10) = W4 m ρ c (Proc.devRef .tc main_arg10) := by
    unfold hostOps2
    after_results_simp <;> rfl
  exact h.trans (W4_main_arg10 m ρ c)
/-- The third stretch keeps the second region's output … -/
theorem W5_main_v39 : W5 m ρ c (Proc.devRef .tc main_v39) = W4 m ρ c (Proc.devRef .tc main_v39) := by
  show StableHlo.after hostOps2 (W4 m ρ c) (Proc.devRef .tc main_v39) = _
  unfold hostOps2
  after_results_simp <;> rfl
/-- … and aggregates it: the last layer's mean-aggregated input. -/
theorem W5_main_v52 : W5 m ρ c (Proc.devRef .tc main_v52) = meanMul (m ((c : Thread nD τ).loc main_arg1)) (W4 m ρ c (Proc.devRef .tc main_v39)) := by
  show StableHlo.after hostOps2 (W4 m ρ c) (Proc.devRef .tc main_v52) = _
  unfold hostOps2
  after_results_simp
  rw [W4_main_v1, W4_main_v3, W4_main_v11]
  rfl

end Host

/-! ## The three regions chained, over the extended reals -/

section Value

variable (m : (ℓ : Loc nD τ sig) → Buf (Elt Ideal) ℓ) (ρ : Dev nD → PrngReg) (c : Dev nD)

-- What each region leaves in its output array, as a function of the contents it is entered with.
variable
  (hR0 : ∀ (V : (c : Dev nD) → (b : Ref sig .tc) → Buf (Elt Ideal) ((c : Thread nD τ).loc b)) (c : Dev nD),
    (dat0 (F := Ideal) V c).arrAt 5 cfg0.N
      = Cert.Sage.hidden (V c main_v24) (V c main_arg0) (V c main_arg2) (V c main_arg3) (V c main_arg4))
  (hR1 : ∀ (V : (c : Dev nD) → (b : Ref sig .tc) → Buf (Elt Ideal) ((c : Thread nD τ).loc b)) (c : Dev nD),
    (dat1 (F := Ideal) V c).arrAt 5 cfg1.N
      = Cert.Sage.hidden (V c main_v38) (V c main_v25) (V c main_arg5) (V c main_arg6) (V c main_arg7))
  (hR2 : ∀ (V : (c : Dev nD) → (b : Ref sig .tc) → Buf (Elt Ideal) ((c : Thread nD τ).loc b)) (c : Dev nD),
    (dat2 (F := Ideal) V c).arrAt 5 cfg2.N
      = Cert.Sage.output (V c main_v52) (V c main_v39) (V c main_arg8) (V c main_arg9) (V c main_arg10))

/-- The first layer's output, of the argument arrays. -/
def H1 : FVec Ideal Cert.Sage.SN128 .f32 :=
  Cert.Sage.hidden (meanMul (F := Ideal) (m ((c : Thread nD τ).loc main_arg1)) (m ((c : Thread nD τ).loc main_arg0))) (m ((c : Thread nD τ).loc main_arg0)) (m ((c : Thread nD τ).loc main_arg2)) (m ((c : Thread nD τ).loc main_arg3)) (m ((c : Thread nD τ).loc main_arg4))

/-- The second layer's output, of the argument arrays. -/
def H2 : FVec Ideal Cert.Sage.SN128 .f32 :=
  Cert.Sage.hidden (meanMul (F := Ideal) (m ((c : Thread nD τ).loc main_arg1)) (H1 m c)) (H1 m c) (m ((c : Thread nD τ).loc main_arg5)) (m ((c : Thread nD τ).loc main_arg6)) (m ((c : Thread nD τ).loc main_arg7))

include hR0 in
/-- After the first region its output array holds the first layer's output. -/
theorem W2_main_v25 : W2 m ρ c (Proc.devRef .tc main_v25) = H1 m c := by
  refine (W2_arr m ρ c 5).trans ?_
  rw [hR0 (V1 m ρ) c]
  show Cert.Sage.hidden (W1 m ρ c (Proc.devRef .tc main_v24)) (W1 m ρ c (Proc.devRef .tc main_arg0)) (W1 m ρ c (Proc.devRef .tc main_arg2))
    (W1 m ρ c (Proc.devRef .tc main_arg3)) (W1 m ρ c (Proc.devRef .tc main_arg4)) = _
  rw [W1_main_v24, W1_main_arg0, W1_main_arg2, W1_main_arg3, W1_main_arg4]
  rfl

include hR0 hR1 in
/-- After the second region its output array holds the second layer's output. -/
theorem W4_main_v39 : W4 m ρ c (Proc.devRef .tc main_v39) = H2 m c := by
  refine (W4_arr m ρ c 5).trans ?_
  rw [hR1 (V3 m ρ) c]
  show Cert.Sage.hidden (W3 m ρ c (Proc.devRef .tc main_v38)) (W3 m ρ c (Proc.devRef .tc main_v25)) (W3 m ρ c (Proc.devRef .tc main_arg5))
    (W3 m ρ c (Proc.devRef .tc main_arg6)) (W3 m ρ c (Proc.devRef .tc main_arg7)) = _
  rw [W3_main_v38, W3_main_v25, W3_main_arg5, W3_main_arg6, W3_main_arg7, W2_main_v25 m ρ c hR0]
  rfl

include hR0 hR1 hR2 in
/-- THE KERNEL PROGRAM'S RESULT: the three-layer network over "sum times reciprocal", of the argument arrays. -/
theorem kernel_value : W6 m ρ c (Proc.devRef .tc main_v53)
    = Cert.Sage.net (meanMul (F := Ideal) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [hR2 (V5 m ρ) c]
  show Cert.Sage.output (W5 m ρ c (Proc.devRef .tc main_v52)) (W5 m ρ c (Proc.devRef .tc main_v39)) (W5 m ρ c (Proc.devRef .tc main_arg8))
    (W5 m ρ c (Proc.devRef .tc main_arg9)) (W5 m ρ c (Proc.devRef .tc main_arg10)) = _
  rw [W5_main_v52, W5_main_v39, W5_main_arg8, W5_main_arg9, W5_main_arg10, W4_main_v39 m ρ c hR0 hR1]
  rfl

end Value

end Cert.KernelIdeal.Chain

end
-- ==== Proof.RefLayer.lean ====
/-
  The reference's graph-convolution layer, as a composition of whole-array operations, is the layer of Spec.lean.

  Over the extended reals a `dot_general` of a [50000,128] array with a [128,n] array, contracting the first array's
  columns against the second's rows, reads at (r, c) the finite sum ∑ₖ L[r,k] · R[k,c] over the 128 features. A bias
  of length n broadcast first to [1,n] and then to [50000,n] reads b[c] at (r, c), whatever the row. The zero word
  broadcast to every position reads the extended real 0. Read at an index, the sum of the two products and the
  bias is therefore `lin128` (or `lin64`), and its maximum against the broadcast zero is the clamp at zero.
  The operand arrays are arbitrary: nothing is used of them but their shapes.
-/
import proofs.«159444_j40063454937586_1_alg».proof.Proof.Gen.ReferenceIdeal.Read
import proofs.«159444_j40063454937586_1_alg».proof.Proof.Spec

noncomputable section

open scoped BigOperators

namespace Cert.ReferenceIdeal.Layer

open Cert.ReferenceIdeal Cert.ReferenceIdeal.Gen Idealize.ShloMosaic Idealize.ShloMosaic.TcCoe Idealize.SL.Sem
open Idealize.ShloMosaic.ValueIdx

/-- The product of a [50000,128] array with a [128,128] array at (r, c): the sum over the 128 features k of
    the left array at (r, k) times the right at (k, c). -/
theorem dot128_apply (L : FVec Ideal S50000x128 .f32) (R : FVec Ideal S128x128 .f32) (i : S50000x128.Idx) :
    Host.dotGeneral (F := Ideal) dot_S50000x128_S128x128_S50000x128_1_0_0_1_n_n none L R i
      = ∑ k : Fin 128, L (ix2 (i 0) k) * R (ix2 k (i 1)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k :=
    funext fun a => Fin.ext (by
      match a with
      | ⟨0, _⟩ => exact Read.lhs_main_v23_0 _ _
      | ⟨1, _⟩ => exact (Read.lhs_main_v23_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (i 1) :=
    funext fun a => Fin.ext (by
      match a with
      | ⟨0, _⟩ => exact (Read.rhs_main_v23_0 _ _).trans hk
      | ⟨1, _⟩ => exact Read.rhs_main_v23_1 _ _)
  rw [el, er]
  rfl

/-- The product of a [50000,128] array with a [128,64] array at (r, c): the sum over the 128 features k of
    the left array at (r, k) times the right at (k, c). -/
theorem dot64_apply (L : FVec Ideal S50000x128 .f32) (R : FVec Ideal S128x64 .f32) (i : S50000x64.Idx) :
    Host.dotGeneral (F := Ideal) dot_S50000x128_S128x64_S50000x64_1_0_0_1_n_n none L R i
      = ∑ k : Fin 128, L (ix2 (i 0) k) * R (ix2 k (i 1)) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0) k :=
    funext fun a => Fin.ext (by
      match a with
      | ⟨0, _⟩ => exact Read.lhs_main_v83_0 _ _
      | ⟨1, _⟩ => exact (Read.lhs_main_v83_1 _ _).trans hk)
  have er : dot_S50000x128_S128x64_S50000x64_1_0_0_1_n_n.rhsIdx i ((ValueIdx.contrEquiv1 dot_S50000x128_S128x64_S50000x64_1_0_0_1_n_n 128 rfl rfl).symm k) = ix2 k (i 1) :=
    funext fun a => Fin.ext (by
      match a with
      | ⟨0, _⟩ => exact (Read.rhs_main_v83_0 _ _).trans hk
      | ⟨1, _⟩ => exact Read.rhs_main_v83_1 _ _)
  rw [el, er]
  rfl

/-- A bias of length 128 broadcast to [1,128] and then to [50000,128] reads, at (r, c), its entry c. -/
theorem bias128_apply (b : FVec Ideal S128 .f32) (i : S50000x128.Idx) :
    broadcastInDim S50000x128 ![0, 1] bcast_S1x128_S50000x128_0_1 (broadcastInDim S1x128 ![1] bcast_S128_S1x128_1 b) i = b (ix1 (i 1)) := by
  have h2 : broadcastInDim S50000x128 ![0, 1] bcast_S1x128_S50000x128_0_1 (broadcastInDim S1x128 ![1] bcast_S128_S1x128_1 b) i
      = broadcastInDim S1x128 ![1] bcast_S128_S1x128_1 b (ix2 (0 : Fin 1) (i 1)) := by
    generalize broadcastInDim S1x128 ![1] bcast_S128_S1x128_1 b = y
    exact broadcastInDim_apply _ bcast_S1x128_S50000x128_0_1 y i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h2]
  exact broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])

/-- A bias of length 64 broadcast to [1,64] and then to [50000,64] reads, at (r, c), its entry c. -/
theorem bias64_apply (b : FVec Ideal S64 .f32) (i : S50000x64.Idx) :
    broadcastInDim S50000x64 ![0, 1] bcast_S1x64_S50000x64_0_1 (broadcastInDim S1x64 ![1] bcast_S64_S1x64_1 b) i = b (ix1 (i 1)) := by
  have h2 : broadcastInDim S50000x64 ![0, 1] bcast_S1x64_S50000x64_0_1 (broadcastInDim S1x64 ![1] bcast_S64_S1x64_1 b) i
      = broadcastInDim S1x64 ![1] bcast_S64_S1x64_1 b (ix2 (0 : Fin 1) (i 1)) := by
    generalize broadcastInDim S1x64 ![1] bcast_S64_S1x64_1 b = y
    exact broadcastInDim_apply _ bcast_S1x64_S50000x64_0_1 y i (ix2 (0 : Fin 1) (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [h2]
  exact broadcastInDim_apply _ bcast_S64_S1x64_1 b (ix2 (0 : Fin 1) (i 1)) (ix1 (i 1)) (fun a => match a with
    | ⟨0, _⟩ => by show (i 1).val = if (64 : Nat) = 1 then 0 else (i 1).val; rw [if_neg (by decide)])

/-- The zero word broadcast to [50000,128] reads the extended real 0 at every index. -/
theorem zero128_apply (i : S50000x128.Idx) :
    broadcastInDim S50000x128 ![] bcast_S_S50000x128 (constant (F := Ideal) S_ .f32 0x00000000#32) i = 0 := by
  have h : broadcastInDim S50000x128 ![] bcast_S_S50000x128 (constant (F := Ideal) S_ .f32 0x00000000#32) i
      = constant (F := Ideal) S_ .f32 0x00000000#32 (fun a => a.elim0) := by
    generalize constant (F := Ideal) S_ .f32 0x00000000#32 = y
    exact broadcastInDim_apply _ bcast_S_S50000x128 y i (fun a => a.elim0) (fun a => a.elim0)
  rw [h, constant_apply, Ideal.ofBits_zero_f32]

/-- A hidden layer of the reference: the two products, the broadcast bias between them, and the maximum against the
    broadcast zero, is `Cert.Sage.hidden` of the same arrays. -/
theorem ref_hidden (mean h : FVec Ideal S50000x128 .f32) (Wl : FVec Ideal S128x128 .f32) (b : FVec Ideal S128 .f32) (Wr : FVec Ideal S128x128 .f32) :
    maximumf
      (addf
        (addf (Host.dotGeneral (F := Ideal) dot_S50000x128_S128x128_S50000x128_1_0_0_1_n_n none mean Wl)
          (broadcastInDim S50000x128 ![0, 1] bcast_S1x128_S50000x128_0_1 (broadcastInDim S1x128 ![1] bcast_S128_S1x128_1 b)))
        (Host.dotGeneral (F := Ideal) dot_S50000x128_S128x128_S50000x128_1_0_0_1_n_n none h Wr))
      (broadcastInDim S50000x128 ![] bcast_S_S50000x128 (constant (F := Ideal) S_ .f32 0x00000000#32))
    = Cert.Sage.hidden mean h Wl b Wr := by
  funext i
  rw [maximumf_apply, addf_apply, addf_apply, dot128_apply, dot128_apply, bias128_apply, zero128_apply]
  rfl

/-- The output layer of the reference: the two products and the broadcast bias between them, no activation, is
    `Cert.Sage.output` of the same arrays. -/
theorem ref_output (mean h : FVec Ideal S50000x128 .f32) (Wl : FVec Ideal S128x64 .f32) (b : FVec Ideal S64 .f32) (Wr : FVec Ideal S128x64 .f32) :
    addf
      (addf (Host.dotGeneral (F := Ideal) dot_S50000x128_S128x64_S50000x64_1_0_0_1_n_n none mean Wl)
        (broadcastInDim S50000x64 ![0, 1] bcast_S1x64_S50000x64_0_1 (broadcastInDim S1x64 ![1] bcast_S64_S1x64_1 b)))
      (Host.dotGeneral (F := Ideal) dot_S50000x128_S128x64_S50000x64_1_0_0_1_n_n none h Wr)
    = Cert.Sage.output mean h Wl b Wr := by
  funext i
  rw [addf_apply, addf_apply, dot64_apply, dot64_apply, bias64_apply]
  rfl

end Cert.ReferenceIdeal.Layer

end
-- ==== Proof.RefValue.lean ====
/-
  The reference's whole result is the three-layer network of Net.lean over the reference's own mean.

  The reference aggregates with one operator throughout: for an edge list `e` and node features `h`, the per-node sum of
  the features at the sources of the arriving edges (a row gather scattered-and-added into zeros at the destinations),
  divided row by row by `max count 1`, the count being the same scatter of ones. That operator is `meanDiv e`. Around it
  each layer is the composition of array operations that RefLayer.lean identifies with `Cert.Sage.hidden` and
  `Cert.Sage.output`. The result of the program is one nested term in these operations; regrouped, it is
  `outputOps (μ H₂) H₂ …` with `H₂ = hiddenOps (μ H₁) H₁ …`, `H₁ = hiddenOps (μ x) x …` and `μ = meanDiv e`. The regrouping is
  an identity of terms, for any float instance; over the extended reals the three layers are then replaced by their
  specifications. The gather and the scatter are never opened.
-/
import proofs.«159444_j40063454937586_1_alg».proof.Proof.Gen.ReferenceIdeal.Read
import proofs.«159444_j40063454937586_1_alg».proof.Proof.RefLayer
import proofs.«159444_j40063454937586_1_alg».proof.Proof.Net

noncomputable section

namespace Cert.ReferenceIdeal.Layer

open Cert.ReferenceIdeal Cert.ReferenceIdeal.Gen Idealize.ShloMosaic Idealize.ShloMosaic.TcCoe Idealize.SL.Sem Idealize.ShloMosaic.StableHlo

section AnyInstance

variable {F : FTy → Type} [FloatOps F]

/-- The edges' source nodes: row 0 of the edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination nodes: row 1 of the edge list. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The gather's start rows: a negative source is counted from the end (50000 added). -/
def srcRows (e : (⟨S2x800000, .i32⟩ : BufTy).Contents (Elt F)) : (⟨S800000x1, .i32⟩ : BufTy).Contents (Elt F) :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))

/-- The scatter's rows: the destinations. -/
def dstRows (e : (⟨S2x800000, .i32⟩ : BufTy).Contents (Elt F)) : (⟨S800000x1, .i32⟩ : BufTy).Contents (Elt F) :=
  broadcastInDim S800000x1 ![0] bcast_S800000_S800000x1_0 (dst e)

/-- Per node, the sum of `h` over the sources of the arriving edges. -/
def agg (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (dstRows e)
    (Host.gather gather_S50000x128_S800000x1_S800000x128_1_0_n_n_0_1_1128 h (srcRows e))

/-- The constant one, per node. -/
def ones : (⟨S50000, .f32⟩ : BufTy).Contents (Elt F) :=
  broadcastInDim S50000 ![] bcast_S_S50000 (constant (F := F) S_ .f32 0x3F800000#32)

/-- Per node, the number of arriving edges: ones scattered-and-added at the destinations. -/
def cnt (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (dstRows e)
    (broadcastInDim S800000 ![] bcast_S_S800000 (constant (F := F) S_ .f32 0x3F800000#32))

/-- The divisor: the count, at least one. -/
def den (e : (⟨S2x800000, .i32⟩ : BufTy).Contents (Elt F)) : (⟨S50000, .f32⟩ : BufTy).Contents (Elt F) :=
  maximumf (cnt e) ones

/-- A per-node value repeated along the 128 features. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean as the sum divided by the divisor. -/
def meanDiv (e : (⟨S2x800000, .i32⟩ : BufTy).Contents (Elt F)) (h : (⟨S50000x128, .f32⟩ : BufTy).Contents (Elt F)) :
    (⟨S50000x128, .f32⟩ : BufTy).Contents (Elt F) :=
  Host.divf (agg e h) (spread (den e))

/-- A hidden layer as the reference computes it: the product of the mean with the left weight, plus the broadcast bias,
    plus the product of the features with the root weight, and the maximum of that against the broadcast zero. -/
def hiddenOps (mean h : (⟨S50000x128, .f32⟩ : BufTy).Contents (Elt F)) (Wl : (⟨S128x128, .f32⟩ : BufTy).Contents (Elt F))
    (b : (⟨S128, .f32⟩ : BufTy).Contents (Elt F)) (Wr : (⟨S128x128, .f32⟩ : BufTy).Contents (Elt F)) : (⟨S50000x128, .f32⟩ : BufTy).Contents (Elt F) :=
  maximumf
    (addf
      (addf (Host.dotGeneral (F := F) dot_S50000x128_S128x128_S50000x128_1_0_0_1_n_n none mean Wl)
        (broadcastInDim S50000x128 ![0, 1] bcast_S1x128_S50000x128_0_1 (broadcastInDim S1x128 ![1] bcast_S128_S1x128_1 b)))
      (Host.dotGeneral (F := F) dot_S50000x128_S128x128_S50000x128_1_0_0_1_n_n none h Wr))
    (broadcastInDim S50000x128 ![] bcast_S_S50000x128 (constant (F := F) S_ .f32 0x00000000#32))

/-- The output layer as the reference computes it: the two products and the broadcast bias between them, no maximum. -/
def outputOps (mean h : (⟨S50000x128, .f32⟩ : BufTy).Contents (Elt F)) (Wl : (⟨S128x64, .f32⟩ : BufTy).Contents (Elt F))
    (b : (⟨S64, .f32⟩ : BufTy).Contents (Elt F)) (Wr : (⟨S128x64, .f32⟩ : BufTy).Contents (Elt F)) : (⟨S50000x64, .f32⟩ : BufTy).Contents (Elt F) :=
  addf
    (addf (Host.dotGeneral (F := F) dot_S50000x128_S128x64_S50000x64_1_0_0_1_n_n none mean Wl)
      (broadcastInDim S50000x64 ![0, 1] bcast_S1x64_S50000x64_0_1 (broadcastInDim S1x64 ![1] bcast_S64_S1x64_1 b)))
    (Host.dotGeneral (F := F) dot_S50000x128_S128x64_S50000x64_1_0_0_1_n_n none h Wr)

/-- Three layers of array operations over the mean of the edge list `e`: two hidden layers and the output layer, each
    fed the mean of the layer before it and that layer itself. -/
def netOps (e : (⟨S2x800000, .i32⟩ : BufTy).Contents (Elt F)) (x : (⟨S50000x128, .f32⟩ : BufTy).Contents (Elt F))
    (Wl0 : (⟨S128x128, .f32⟩ : BufTy).Contents (Elt F)) (b0 : (⟨S128, .f32⟩ : BufTy).Contents (Elt F)) (Wr0 : (⟨S128x128, .f32⟩ : BufTy).Contents (Elt F))
    (Wl1 : (⟨S128x128, .f32⟩ : BufTy).Contents (Elt F)) (b1 : (⟨S128, .f32⟩ : BufTy).Contents (Elt F)) (Wr1 : (⟨S128x128, .f32⟩ : BufTy).Contents (Elt F))
    (Wl2 : (⟨S128x64, .f32⟩ : BufTy).Contents (Elt F)) (b2 : (⟨S64, .f32⟩ : BufTy).Contents (Elt F)) (Wr2 : (⟨S128x64, .f32⟩ : BufTy).Contents (Elt F)) : (⟨S50000x64, .f32⟩ : BufTy).Contents (Elt F) :=
  outputOps (meanDiv e (hiddenOps (meanDiv e (hiddenOps (meanDiv e x) x Wl0 b0 Wr0)) (hiddenOps (meanDiv e x) x Wl0 b0 Wr0) Wl1 b1 Wr1))
    (hiddenOps (meanDiv e (hiddenOps (meanDiv e x) x Wl0 b0 Wr0)) (hiddenOps (meanDiv e x) x Wl0 b0 Wr0) Wl1 b1 Wr1) Wl2 b2 Wr2

set_option maxRecDepth 8192 in
/-- The program's result term, regrouped: it is `netOps` of the arguments. An identity of terms, for any float instance. -/
theorem res_eq_netOps (m : (ℓ : Loc nD τ sig) → Buf (Elt F) ℓ) (c : Dev nD) :
    Cert.ReferenceIdeal.Value.res_main_v88 (F := F) m c
      = netOps (F := F) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v88; rfl

end AnyInstance

/-- Over the extended reals the reference's hidden layer is `Cert.Sage.hidden`. -/
theorem hiddenOps_eq (mean h : FVec Ideal S50000x128 .f32) (Wl : FVec Ideal S128x128 .f32) (b : FVec Ideal S128 .f32) (Wr : FVec Ideal S128x128 .f32) :
    hiddenOps (F := Ideal) mean h Wl b Wr = Cert.Sage.hidden mean h Wl b Wr := by
  unfold hiddenOps
  exact ref_hidden mean h Wl b Wr

/-- Over the extended reals the reference's output layer is `Cert.Sage.output`. -/
theorem outputOps_eq (mean h : FVec Ideal S50000x128 .f32) (Wl : FVec Ideal S128x64 .f32) (b : FVec Ideal S64 .f32) (Wr : FVec Ideal S128x64 .f32) :
    outputOps (F := Ideal) mean h Wl b Wr = Cert.Sage.output mean h Wl b Wr := by
  unfold outputOps
  exact ref_output mean h Wl b Wr

/-- Over the extended reals the three layers of array operations are the network over `meanDiv e`. -/
theorem netOps_eq_net (e : (⟨S2x800000, .i32⟩ : BufTy).Contents (Elt Ideal)) (x : FVec Ideal S50000x128 .f32)
    (Wl0 : FVec Ideal S128x128 .f32) (b0 : FVec Ideal S128 .f32) (Wr0 : FVec Ideal S128x128 .f32)
    (Wl1 : FVec Ideal S128x128 .f32) (b1 : FVec Ideal S128 .f32) (Wr1 : FVec Ideal S128x128 .f32)
    (Wl2 : FVec Ideal S128x64 .f32) (b2 : FVec Ideal S64 .f32) (Wr2 : FVec Ideal S128x64 .f32) :
    netOps (F := Ideal) e x Wl0 b0 Wr0 Wl1 b1 Wr1 Wl2 b2 Wr2
      = Cert.Sage.net (meanDiv (F := Ideal) e) x Wl0 b0 Wr0 Wl1 b1 Wr1 Wl2 b2 Wr2 := by
  unfold netOps Cert.Sage.net
  rw [hiddenOps_eq, hiddenOps_eq, outputOps_eq]

/-- The reference's result is the three-layer network over the reference's mean, of the program's arguments. -/
theorem res_eq_net (m : (ℓ : Loc nD τ sig) → Buf (Elt Ideal) ℓ) (c : Dev nD) :
    Cert.ReferenceIdeal.Value.res_main_v88 (F := Ideal) m c
      = Cert.Sage.net (meanDiv (F := Ideal) (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  (res_eq_netOps (F := Ideal) m c).trans (netOps_eq_net _ _ _ _ _ _ _ _ _ _ _)

end Cert.ReferenceIdeal.Layer

end
-- ==== Proof.lean ====
/-
  Three layers of a mean-aggregating graph convolution over 50000 nodes and 800000 edges: a program whose layers are
  kernels (each layer's "combine" step — the aggregated mean through one weight, a bias, the node's own features through
  another weight, a clamp at zero on the hidden layers — runs block by block over 5000 rows at a time) against a
  reference that computes every step with whole-array operations. Over the extended reals the two compute one function.

  * The aggregation (a row gather at the edge sources scattered-and-added at the edge destinations, and the count of
    arriving edges) is the same operation on the same arrays in both programs; it is never opened.
  * The kernel program scales the aggregated sum by the reciprocal `1 / max count 1`, the reference divides it by
    `max count 1`. Off zero a quotient is the product with the inverse, and `max count 1` is at least one: the two means
    agree for every sum and every count, with no use of the inputs' finiteness (Proof/Spec.lean, Proof/Glue.lean).
  * A layer computed on row blocks of 5000 is the layer computed on all rows: each output entry depends on one row of
    each left operand, and the ten blocks tile the rows (Proof/RegionValue.lean). The narrowing of the matrix products'
    operands to a shorter float format is the identity here, and a product accumulated into zero is the plain sum of
    products, as the reference's is (Proof/RefLayer.lean).
  * Chaining the three regions through the host operations between them gives the network over the first mean
    (Proof/Chain.lean); the reference's one composed term is the network over the second (Proof/RefValue.lean).

  The word-level program's frame and the idealized program's are the generated launch over the program's six segments; the
  idealized run is stated once more with the result array named (Proof/KernelIdealRun.lean). The reference has no kernel: its
  frame is its generated run with the result dropped. The idealization rewrote nothing, so its conjunct is trivial.
-/
import proofs.«159444_j40063454937586_1_alg».proof.Defs
import proofs.«159444_j40063454937586_1_alg».proof.Proof.Gen.Kernel
import proofs.«159444_j40063454937586_1_alg».proof.Proof.Gen.Kernel.Skeleton
import proofs.«159444_j40063454937586_1_alg».proof.Proof.Gen.Kernel.Points
import proofs.«159444_j40063454937586_1_alg».proof.Proof.KernelLaunchP
import proofs.«159444_j40063454937586_1_alg».proof.Proof.KernelFrameP
import proofs.«159444_j40063454937586_1_alg».proof.Proof.Gen.KernelIdeal
import proofs.«159444_j40063454937586_1_alg».proof.Proof.Gen.KernelIdeal.Skeleton
import proofs.«159444_j40063454937586_1_alg».proof.Proof.Gen.KernelIdeal.Points
import proofs.«159444_j40063454937586_1_alg».proof.Proof.KernelIdealLaunchP
import proofs.«159444_j40063454937586_1_alg».proof.Proof.KernelIdealFrameP
import proofs.«159444_j40063454937586_1_alg».proof.Proof.KernelIdealRun
import proofs.«159444_j40063454937586_1_alg».proof.Proof.Gen.ReferenceIdeal
import proofs.«159444_j40063454937586_1_alg».proof.Proof.Gen.ReferenceIdeal.Run
import proofs.«159444_j40063454937586_1_alg».proof.Proof.Gen.ReferenceIdeal.Read
import proofs.«159444_j40063454937586_1_alg».proof.Proof.Gen.Pre_finite_inputs
import proofs.«159444_j40063454937586_1_alg».proof.Proof.Spec
import proofs.«159444_j40063454937586_1_alg».proof.Proof.Net
import proofs.«159444_j40063454937586_1_alg».proof.Proof.Glue
import proofs.«159444_j40063454937586_1_alg».proof.Proof.RegionValue
import proofs.«159444_j40063454937586_1_alg».proof.Proof.Chain
import proofs.«159444_j40063454937586_1_alg».proof.Proof.RefLayer
import proofs.«159444_j40063454937586_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs, faults nowhere, and leaves its arguments as launched. -/
theorem frame_kernel : Cert.frame_Kernel := fun m ρ _ => Cert.Kernel.GenP.frame m ρ

/-- So does the idealized program. -/
theorem frame_kernelIdeal : Cert.frame_KernelIdeal := fun m ρ _ => Cert.KernelIdeal.GenP.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's mean (sum divided by `max count 1`) is the kernel program's (sum times `1 / max count 1`): the same
    gather, scatters and broadcasts on the same arrays, and the one law of Proof/Glue.lean. -/
theorem mean_eq (e : (⟨Cert.KernelIdeal.S2x800000, .i32⟩ : BufTy).Contents (Elt Ideal)) :
    Cert.ReferenceIdeal.Layer.meanDiv (F := Ideal) e = Cert.KernelIdeal.Glue.meanMul (F := Ideal) e :=
  funext fun h => (show Cert.ReferenceIdeal.Layer.meanDiv (F := Ideal) e h = Cert.KernelIdeal.Glue.meanDiv (F := Ideal) e h from rfl).trans
    (Cert.KernelIdeal.Glue.meanMul_eq_meanDiv e h).symm

/-- From memories that agree on the eleven arguments both idealized programs end with the three-layer network over the
    mean aggregation of the arguments in their result arrays, the arguments unchanged. -/
theorem algebraic : Cert.algebraic_KernelIdeal_ReferenceIdeal := by
  intro m ρ m' ρ' _ hagree
  refine ⟨fun c => Cert.Sage.net (Cert.KernelIdeal.Glue.meanMul (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.kernel_value m ρ c
          Cert.KernelIdeal.RegionValue.region0 Cert.KernelIdeal.RegionValue.region1 Cert.KernelIdeal.RegionValue.region2), (h c).2⟩)
      (Cert.KernelIdeal.GenP.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Layer.res_eq_net, a0, a1, a2, a3, a4, a5, a6, a7, a8, a9, a10, mean_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
